-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S128x119 : Shape := ⟨2, ![128, 119]⟩
abbrev S128 : Shape := ⟨1, ![128]⟩
abbrev S_ : Shape := ⟨0, ![]⟩

class Facts : Prop where
  bcast_S_S128x119 : S_.BroadcastsInDim S128x119 (![] : Fin 0 → Fin S128x119.rank)
  reducesTo_S128x119_S_d0_1 : S128x119.ReducesTo [0, 1] S_
  h_S_ : 0 < S_.numel
  bcast_S_S128 : S_.BroadcastsInDim S128 (![] : Fin 0 → Fin S128.rank)
  reducesTo_S128_S_d0 : S128.ReducesTo [0] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S1048576 32) (main_arg1 : FVec F S128x119 .f32) (main_arg2 : FVec F S128 .f32) : IVec S_ 1 :=
  let main_v0 : FVec F S128x119 .f32 := Host.absf main_arg1
  let main_cst : FVec F S_ .f32 := constant S_ .f32 0x7F800000#32
  let main_v1 : FVec F S128x119 .f32 := broadcastInDim S128x119 ![] bcast_S_S128x119 main_cst
  let main_v2 : IVec S128x119 1 := cmpf .olt main_v0 main_v1
  let main_c : IVec S_ 1 := constantI S_ 1 1#1
  let main_v3 : IVec S_ 1 := (fun x v => Host.reduce IntOp.andi x v reducesTo_S128x119_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S1048576 32 := broadcastInDim S1048576 ![] bcast_S_S1048576 main_c_2
  let main_v10 : IVec S1048576 1 := cmpi .sge main_arg0 main_v9
  let main_c_3 : IVec S_ 1 := constantI S_ 1 1#1
  let main_v11 : IVec S_ 1 := (fun x v => Host.reduce IntOp.andi x v reducesTo_S1048576_S_d0 h_S_) main_v10 main_c_3
  let main_v12 : IVec S_ 1 := andi main_v8 main_v11
  let main_c_4 : IVec S_ 32 := constantI S_ 32 119#32
  let main_v13 : IVec S1048576 32 := broadcastInDim S1048576 ![] bcast_S_S1048576 main_c_4
  let main_v14 : IVec S1048576 1 := cmpi .slt main_arg0 main_v13
  let main_c_5 : IVec S_ 1 := constantI S_ 1 1#1
  let main_v15 : IVec S_ 1 := (fun x v => Host.reduce IntOp.andi x v reducesTo_S1048576_S_d0 h_S_) main_v14 main_c_5
  fn_part1 (F := F) main_v12 main_v15
-- ==== Kernel.lean ====
abbrev S1048576 : Shape := ⟨1, ![1048576]⟩
abbrev S128x119 : Shape := ⟨2, ![128, 119]⟩
abbrev S128 : Shape := ⟨1, ![128]⟩
abbrev S_ : Shape := ⟨0, ![]⟩
abbrev S8192x128 : Shape := ⟨2, ![8192, 128]⟩
abbrev S119x128 : Shape := ⟨2, ![119, 128]⟩
abbrev S128x128 : Shape := ⟨2, ![128, 128]⟩
abbrev S1x128 : Shape := ⟨2, ![1, 128]⟩
abbrev S1048576x128 : Shape := ⟨2, ![1048576, 128]⟩
abbrev S64x128 : Shape := ⟨2, ![64, 128]⟩
abbrev S64x128x128 : Shape := ⟨3, ![64, 128, 128]⟩
abbrev S64x128x1 : Shape := ⟨3, ![64, 128, 1]⟩

abbrev nBuf : Space → Nat
  | .hbm => 18
  | .vmem => 6
  | .smem => 0
  | _ => 0

abbrev bufTy : (tb : Table) → Fin (tcTables nBuf tb) → BufTy
  | .hbm, ⟨0, _⟩ => ⟨S1048576, .i32⟩
  | .hbm, ⟨1, _⟩ => ⟨S128x119, .f32⟩
  | .hbm, ⟨2, _⟩ => ⟨S128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1048576, .i32⟩
  | .hbm, ⟨7, _⟩ => ⟨S1048576, .i32⟩
  | .hbm, ⟨8, _⟩ => ⟨S_, .i32⟩
  | .hbm, ⟨9, _⟩ => ⟨S1048576, .i32⟩
  | .hbm, ⟨10, _⟩ => ⟨S1048576, .i32⟩
  | .hbm, ⟨11, _⟩ => ⟨S8192x128, .i32⟩
  | .hbm, ⟨12, _⟩ => ⟨S119x128, .f32⟩
  | .hbm, ⟨13, _⟩ => ⟨S_, .i32⟩
  | .hbm, ⟨14, _⟩ => ⟨S_, .f32⟩
  | .hbm, ⟨15, _⟩ => ⟨S128x128, .f32⟩
  | .hbm, ⟨16, _⟩ => ⟨S1x128, .f32⟩
  | .hbm, ⟨17, _⟩ => ⟨S1048576x128, .f32⟩
  | .local _ .vmem, ⟨0, _⟩ => ⟨S64x128, .i32⟩
  | .local _ .vmem, ⟨1, _⟩ => ⟨S64x128, .i32⟩
  | .local _ .vmem, ⟨2, _⟩ => ⟨S128x128, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S1048576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1048576 : S_.BroadcastsInDim S1048576 (![] : Fin 0 → Fin S1048576.rank)
  shapeCasts_S1048576_S8192x128 : S1048576.ShapeCasts S8192x128
  transposes_S128x119_S119x128_1_0 : S128x119.Transposes [1, 0] S119x128
  pads_S119x128_S128x128_090_000 : S119x128.Pads (![0, 0] : Fin 2 → Nat) ![9, 0] ![0, 0] S128x128
  h_S_ : 0 < S_.numel
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S64x128x128_d2_w32 : S64x128x128.Iotas .tc 32 [2]
  shapeCasts_S64x128_S64x128x1 : S64x128.ShapeCasts S64x128x1
  broadcasts_S64x128x1_S64x128x128 : S64x128x1.Broadcasts S64x128x128
  natLt_1_32 : 1 < 32
  bitsLt_bf16_f32 : FTy.bits .bf16 < FTy.bits .f32
  shapeCasts_S64x128x128_S8192x128 : S64x128x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S8192x128.size a
  hwx0_0 : ∀ i : grid0.Coords, EltTy.bits .i32 = 32 ∨ (Rect.block (s := S8192x128) S64x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S1048576x128.size a
  hwx0_3 : ∀ i : grid0.Coords, EltTy.bits .f32 = 32 ∨ (Rect.block (s := S1048576x128) S8192x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v1) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576 : Shape := ⟨1, ![1048576]⟩
abbrev S128x119 : Shape := ⟨2, ![128, 119]⟩
abbrev S128 : Shape := ⟨1, ![128]⟩
abbrev S119x128 : Shape := ⟨2, ![119, 128]⟩
abbrev S_ : Shape := ⟨0, ![]⟩
abbrev S1048576x1 : Shape := ⟨2, ![1048576, 1]⟩
abbrev S1 : Shape := ⟨1, ![1]⟩
abbrev S1x1 : Shape := ⟨2, ![1, 1]⟩
abbrev S1048576x128 : Shape := ⟨2, ![1048576, 128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S1048576, .i32⟩
  | .hbm, ⟨1, _⟩ => ⟨S128x119, .f32⟩
  | .hbm, ⟨2, _⟩ => ⟨S128, .f32⟩
  | .hbm, ⟨3, _⟩ => ⟨S119x128, .f32⟩
  | .hbm, ⟨4, _⟩ => ⟨S_, .i32⟩
  | .hbm, ⟨5, _⟩ => ⟨S1048576, .i32⟩
  | .hbm, ⟨6, _⟩ => ⟨S1048576, .i1⟩
  | .hbm, ⟨7, _⟩ => ⟨S_, .i32⟩
  | .hbm, ⟨8, _⟩ => ⟨S1048576, .i32⟩
  | .hbm, ⟨9, _⟩ => ⟨S1048576, .i32⟩
  | .hbm, ⟨10, _⟩ => ⟨S1048576, .i32⟩
  | .hbm, ⟨11, _⟩ => ⟨S1048576x1, .i32⟩
  | .hbm, ⟨12, _⟩ => ⟨S1, .i32⟩
  | .hbm, ⟨13, _⟩ => ⟨S_, .i32⟩
  | .hbm, ⟨14, _⟩ => ⟨S1048576x1, .i32⟩
  | .hbm, ⟨15, _⟩ => ⟨S1048576x1, .i1⟩
  | .hbm, ⟨16, _⟩ => ⟨S1x1, .i32⟩
  | .hbm, ⟨17, _⟩ => ⟨S1048576x1, .i32⟩
  | .hbm, ⟨18, _⟩ => ⟨S1048576x1, .i1⟩
  | .hbm, ⟨19, _⟩ => ⟨S1048576x1, .i1⟩
  | .hbm, ⟨20, _⟩ => ⟨S_, .i1⟩
  | .hbm, ⟨21, _⟩ => ⟨S1048576, .i1⟩
  | .hbm, ⟨22, _⟩ => ⟨S1048576x128, .f32⟩
  | .hbm, ⟨23, _⟩ => ⟨S1048576x128, .i1⟩
  | .hbm, ⟨24, _⟩ => ⟨S_, .f32⟩
  | .hbm, ⟨25, _⟩ => ⟨S1048576x128, .f32⟩
  | .hbm, ⟨26, _⟩ => ⟨S1048576x128, .f32⟩
  | .hbm, ⟨27, _⟩ => ⟨S1x128, .f32⟩
  | .hbm, ⟨28, _⟩ => ⟨S1048576x128, .f32⟩
  | .hbm, ⟨29, _⟩ => ⟨S1048576x128, .f32⟩
  | _, _ => ⟨S1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩

abbrev nD : Nat := 1
abbrev τ : Topo := Topo.v7x

variable {F : FTy → Type} [FloatOps F]

class Facts₀ : Prop where
  transposes_S128x119_S119x128_1_0 : S128x119.Transposes [1, 0] S119x128
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S1048576x128_0 : S1048576.BroadcastsInDim S1048576x128 (![0] : Fin 1 → Fin S1048576x128.rank)
  bcast_S_S1048576x128 : S_.BroadcastsInDim S1048576x128 (![] : Fin 0 → Fin S1048576x128.rank)
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  gather_S119x128_S1048576x1_S1048576x128_1_0_n_n_0_1_1128_wf : GatherDims.WF S119x128 S1048576x1 S1048576x128 [1] [0] [] [0] [] 1 ![1, 128]

variable [Facts₀]

def gather_S119x128_S1048576x1_S1048576x128_1_0_n_n_0_1_1128 : GatherDims S119x128 S1048576x1 S1048576x128 where
  offsetDims := [1]
  collapsedSliceDims := [0]
  operandBatchingDims := []
  startIndicesBatchingDims := []
  startIndexMap := [0]
  indexVectorDim := 1
  sliceSizes := ![1, 128]
  wf := gather_S119x128_S1048576x1_S1048576x128_1_0_n_n_0_1_1128_wf

class Facts : Prop extends Facts₀ where

variable [Facts]
-- ==== Proof.Spec.lean ====
/-
  The embedding both programs compute, as one function of the argument arrays.

  An atom's id word `a` selects a column of the weight table `W : [128, 119]`: the word read as a signed integer and
  clamped into `[0, 118]` (`col`). Row `n` of the result is that column of `W` plus the bias: entry `(n, d)` is
  `W (d, col (a n)) + b d` on the extended reals (`embed`). The clamp makes the function total; on ids in the table's
  range `0 ≤ a n < 119` (`InRange`) it is no clamp at all, and that is the only domain on which the two programs are
  compared.
-/
import Idealize.ShloMosaic.PureOps.Ideal
import Idealize.ShloMosaic.Lib.ValueIdx

noncomputable section

namespace Cert.Embed

open Idealize.ShloMosaic Idealize.ShloMosaic.ValueIdx

/-- The id vector's shape. -/
abbrev SN : Shape := ⟨1, ![1048576]⟩
/-- The weight table's shape. -/
abbrev SW : Shape := ⟨2, ![128, 119]⟩
/-- The bias vector's shape. -/
abbrev SB : Shape := ⟨1, ![128]⟩
/-- The result's shape. -/
abbrev SO : Shape := ⟨2, ![1048576, 128]⟩

/-- The table column an id word selects: the word read signed, clamped into `[0, 118]`. -/
def col (a : BitVec 32) : Fin 119 := ⟨min a.toInt.toNat 118, by omega⟩

/-- On a word in the table's range the column is the word's value. -/
theorem col_val (a : BitVec 32) (h0 : 0 ≤ a.toInt) (h1 : a.toInt < 119) : ((col a).val : ℤ) = a.toInt := by
  unfold col
  show ((min a.toInt.toNat 118 : ℕ) : ℤ) = a.toInt
  omega

/-- One entry of the embedding: column `col (a p)` of `W` at feature `q`, plus the bias at `q`. -/
def embedAt (a : IVec SN 32) (W : FVec Ideal SW .f32) (b : FVec Ideal SB .f32) (p : Fin 1048576) (q : Fin 128) : EReal :=
  W (ix2 q (col (a (ix1 p)))) + b (ix1 q)

/-- The embedding: entry `(n, d)` is `W (d, col (a n)) + b d`. -/
def embed (a : IVec SN 32) (W : FVec Ideal SW .f32) (b : FVec Ideal SB .f32) : SO.Idx → EReal :=
  fun i => embedAt a W b (i 0) (i 1)

/-- The embedding at an index given by its coordinates. -/
theorem embed_ix2 (a : IVec SN 32) (W : FVec Ideal SW .f32) (b : FVec Ideal SB .f32) (p : Fin 1048576) (q : Fin 128) :
    embed a W b (ix2 p q) = W (ix2 q (col (a (ix1 p)))) + b (ix1 q) := rfl

/-- Every id lies in the table's range `[0, 119)`. -/
def InRange (a : IVec SN 32) : Prop := ∀ n : SN.Idx, 0 ≤ (a n).toInt ∧ (a n).toInt < 119

end Cert.Embed

end
-- ==== Proof.PreRange.lean ====
/-
  The precondition, read back at one id.

  The printed precondition is a conjunction of four conditions, each quantified over all entries of an array; the last two
  say that every id word, read as a signed integer, is at least 0 and below 119. A conjunction of `i1` words that is 1 has both conjuncts 1; an `and`-reduction over
  all axes that is 1 had a 1 at every element; and a signed comparison word that is 1 orders its operands' signed values.
  The right-hand operands are the scalars 0 and 119 laid over the whole id vector, so at every index they are those words.
-/
import proofs.«402289_j71992241815595_3_alg».proof.Proof.Gen.Pre_finite_inputs
import proofs.«402289_j71992241815595_3_alg».proof.Proof.Spec
import Idealize.ShloMosaic.Lib.ReduceAll

namespace Cert.Embed

open Idealize.ShloMosaic Idealize.ShloMosaic.ValueIdx

/-- The scalar shape has one index. -/
instance subsingleton_scalarIdx : Subsingleton Cert.Pre_finite_inputs.S_.Idx := ⟨fun a b => funext fun d => d.elim0⟩

/-- Under the precondition every id lies in the table's range `[0, 119)`. -/
theorem inRange_of_pre {F : FTy → Type} [FloatOps F]
    (a : IVec Cert.Pre_finite_inputs.S1048576 32) (W : FVec F Cert.Pre_finite_inputs.S128x119 .f32) (b : FVec F Cert.Pre_finite_inputs.S128 .f32)
    (h : Cert.Pre_finite_inputs.fn (F := F) a W b = fun _ => 1#1) : Cert.Embed.InRange a := by
  have h0 := congrFun h ValueIdx.ix0
  dsimp only [Cert.Pre_finite_inputs.fn, Cert.Pre_finite_inputs.fn_part1] at h0
  -- the outer conjunction: (finite ∧ finite ∧ all (a ≥ 0)) ∧ all (a < 119)
  obtain ⟨h12, h15⟩ := IntOp.andi_eq_one.1 h0
  obtain ⟨_, h11⟩ := IntOp.andi_eq_one.1 h12
  intro n
  -- a reduction over all entries that is 1 is 1 at entry n
  have hge := Host.reduce_andi_all _ _ _ _ _ h11 n
  have hlt := Host.reduce_andi_all _ _ _ _ _ h15 n
  -- the comparison words, read signed; the broadcast scalars are 0 and 119 at every index
  have hge' : (0#32 : BitVec 32).toInt ≤ (a n).toInt := IntOp.cmpi_sge.1 hge
  have hlt' : (a n).toInt < (119#32 : BitVec 32).toInt := IntOp.cmpi_slt.1 hlt
  have e0 : (0#32 : BitVec 32).toInt = 0 := by decide
  have e119 : (119#32 : BitVec 32).toInt = 119 := by decide
  rw [e0] at hge'
  rw [e119] at hlt'
  exact ⟨hge', hlt'⟩

end Cert.Embed
-- ==== Proof.Body.lean ====
/-
  The kernel body's stored value at one entry of its block.

  The body builds, for each of the block's 8192 atoms, the indicator row of its id among 128 classes (an iota along
  the class axis compared with the id, the bit widened and converted: `1` where the class is the id, `0` elsewhere),
  multiplies the indicator block by the 128 × 128 table block and adds the bias row. At the extended reals the product
  at `(r, q)` is the sum over classes `k` of `indicator r k · table k q`; every term but the id's is `0 · x = 0`
  (on the extended reals too, whatever `x` is) and the id's is `1 · table id q`. So the entry is the table's row of
  the atom's id at `q`, plus the bias at `q`.
-/
import proofs.«402289_j71992241815595_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.Embed.Body

open Idealize.ShloMosaic Idealize.ShloMosaic.ValueIdx Cert.KernelIdeal Cert.KernelIdeal.Gen
open scoped BigOperators

/-! ## The indicator of an id among the classes -/

/-- The indicator entry the body computes for id word `w` at class `k`: the compare bit of the class's number with the
    word, widened to a word and converted to a float. -/
def hot (w : BitVec 32) (k : Fin 128) : EReal :=
  FloatOps.sitofp (F := Ideal) .f32 ((IntOp.cmpi .eq (BitVec.ofNat 32 k.val) w).setWidth 32)

/-- At the id's own class the indicator is `1`. -/
theorem hot_self (c : Fin 128) : hot (BitVec.ofNat 32 c.val) c = 1 := by
  unfold hot
  have h : IntOp.cmpi .eq (BitVec.ofNat 32 c.val) (BitVec.ofNat 32 c.val) = 1#1 := by simp [IntOp.cmpi]
  rw [h]
  show (((BitVec.setWidth 32 1#1).toInt : ℝ) : EReal) = 1
  have : (BitVec.setWidth 32 1#1).toInt = 1 := by decide
  rw [this]; simp

/-- At every other class it is `0`. -/
theorem hot_ne (c k : Fin 128) (h : k ≠ c) : hot (BitVec.ofNat 32 c.val) k = 0 := by
  unfold hot
  have hne : BitVec.ofNat 32 k.val ≠ BitVec.ofNat 32 c.val := by
    intro e
    have := congrArg BitVec.toNat e
    simp only [BitVec.toNat_ofNat] at this
    have hk := k.isLt; have hc := c.isLt
    exact h (Fin.ext (by omega))
  have h0 : IntOp.cmpi .eq (BitVec.ofNat 32 k.val) (BitVec.ofNat 32 c.val) = 0#1 := by
    have hb : (BitVec.ofNat 32 k.val == BitVec.ofNat 32 c.val) = false := beq_false_of_ne hne
    simp [IntOp.cmpi, hb]
  rw [h0]
  show (((BitVec.setWidth 32 0#1).toInt : ℝ) : EReal) = 0
  have : (BitVec.setWidth 32 0#1).toInt = 0 := by decide
  rw [this]; simp

/-! ## The indicator block, read at an entry -/

/-- Row `r` of the 8192-row indicator block is atom `(r / 128, r % 128)` of the 64 × 128 id block: the block is built
    with the two id axes leading and the class axis last, and only the two leading axes are merged. -/
theorem onehot_apply (x0 : IVec S64x128 32) (h1 : S64x128.ShapeCasts S64x128) (h2 : S64x128x128.Iotas .tc 32 [2])
    (h3 : S64x128.ShapeCasts S64x128x1) (h4 : S64x128x1.Broadcasts S64x128x128) (h5 : 1 < 32) (h6 : FTy.bits .bf16 < FTy.bits .f32)
    (h7 : S64x128x128.ShapeCasts S8192x128) (r : Fin 8192) (k : Fin 128) :
    (shapeCast S8192x128 (truncf .bf16 (sitofp .f32 (extui 32 (cmpi .eq (iota .tc S64x128x128 32 [2] h2)
      (broadcastTo S64x128x128 (shapeCast S64x128x1 (shapeCast S64x128 x0 h1) h3) h4)) h5) : FVec Ideal S64x128x128 .f32) h6) h7
        : FVec Ideal S8192x128 .bf16) (ix2 r k)
      = hot (x0 (ix2 ⟨r.val / 128, by have := r.isLt; omega⟩ ⟨r.val % 128, Nat.mod_lt _ (by norm_num)⟩)) k := by
  have hr := r.isLt
  rw [shapeCast_apply _ h7 (ix2 r k) (ix3 ⟨r.val / 128, by omega⟩ ⟨r.val % 128, Nat.mod_lt _ (by norm_num)⟩ k) (by
    rw [Shape.rowMajor_val_three, Shape.rowMajor_val_two]
    show ((r.val / 128) * 128 + r.val % 128) * 128 + k.val = r.val * 128 + k.val
    omega)]
  rw [truncf_apply, sitofp_apply, extui_apply]
  show FloatOps.sitofp (F := Ideal) .f32 ((IntOp.cmpi .eq _ _).setWidth 32) = _
  rw [iota_single_apply]
  rw [broadcastTo_apply _ h4 _ (ix3 ⟨r.val / 128, by omega⟩ ⟨r.val % 128, Nat.mod_lt _ (by norm_num)⟩ (0 : Fin 1)) (by
    intro a
    match a with
    | ⟨0, _⟩ => rfl
    | ⟨1, _⟩ => rfl
    | ⟨2, _⟩ => rfl)]
  rw [shapeCast_apply _ h3 _ (ix2 ⟨r.val / 128, by omega⟩ ⟨r.val % 128, Nat.mod_lt _ (by norm_num)⟩) (by
    rw [Shape.rowMajor_val_three, Shape.rowMajor_val_two]
    show (r.val / 128) * 128 + r.val % 128 = ((r.val / 128) * 128 + r.val % 128) * 1 + 0
    omega)]
  rw [shapeCast_self]
  rfl

/-! ## The product, read at an entry -/

theorem lhs_axis0 (j : S8192x128.Idx) (k : dot_S8192x128_S128x128_S8192x128_1_0_0_1_n_n.contr.Idx) :
    (dot_S8192x128_S128x128_S8192x128_1_0_0_1_n_n.lhsIdx j k 0).val = (j 0).val := rfl
theorem lhs_axis1 (j : S8192x128.Idx) (k : dot_S8192x128_S128x128_S8192x128_1_0_0_1_n_n.contr.Idx) :
    (dot_S8192x128_S128x128_S8192x128_1_0_0_1_n_n.lhsIdx j k 1).val = (k ⟨0, by decide⟩).val :=
  dot_S8192x128_S128x128_S8192x128_1_0_0_1_n_n.lhsIdx_val_of_single rfl j k
theorem rhs_axis0 (j : S8192x128.Idx) (k : dot_S8192x128_S128x128_S8192x128_1_0_0_1_n_n.contr.Idx) :
    (dot_S8192x128_S128x128_S8192x128_1_0_0_1_n_n.rhsIdx j k 0).val = (k ⟨0, by decide⟩).val :=
  dot_S8192x128_S128x128_S8192x128_1_0_0_1_n_n.rhsIdx_val_of_single rfl j k
theorem rhs_axis1 (j : S8192x128.Idx) (k : dot_S8192x128_S128x128_S8192x128_1_0_0_1_n_n.contr.Idx) :
    (dot_S8192x128_S128x128_S8192x128_1_0_0_1_n_n.rhsIdx j k 1).val = (j 1).val := rfl

/-- The product into a zero accumulator at `(r, q)` is the sum over the 128 classes of row `r` of the left block times
    column `q` of the right block. -/
theorem product_apply (lhs : FVec Ideal S8192x128 .bf16) (rhs : FVec Ideal S128x128 .bf16) (r : Fin 8192) (q : Fin 128) :
    (matmul dot_S8192x128_S128x128_S8192x128_1_0_0_1_n_n none lhs rhs (constant S8192x128 .f32 0x00000000#32) : FVec Ideal S8192x128 .f32) (ix2 r q)
      = ∑ k : Fin 128, lhs (ix2 r k) * rhs (ix2 k q) := by
  show FloatOps.matmul dot_S8192x128_S128x128_S8192x128_1_0_0_1_n_n none lhs rhs (constant S8192x128 .f32 0x00000000#32) (ix2 r q) = _
  rw [Ideal.matmul_constant_zero_apply]
  rw [← Equiv.sum_comp (contrEquiv1 dot_S8192x128_S128x128_S8192x128_1_0_0_1_n_n 128 rfl rfl).symm]
  refine Finset.sum_congr rfl fun k _ => ?_
  have el : dot_S8192x128_S128x128_S8192x128_1_0_0_1_n_n.lhsIdx (ix2 r q)
      ((contrEquiv1 dot_S8192x128_S128x128_S8192x128_1_0_0_1_n_n 128 rfl rfl).symm k) = ix2 r k :=
    Shape.idx_ext₂ (lhs_axis0 _ _) ((lhs_axis1 _ _).trans (contrEquiv1_symm_val _ 128 rfl rfl k))
  have er : dot_S8192x128_S128x128_S8192x128_1_0_0_1_n_n.rhsIdx (ix2 r q)
      ((contrEquiv1 dot_S8192x128_S128x128_S8192x128_1_0_0_1_n_n 128 rfl rfl).symm k) = ix2 k q :=
    Shape.idx_ext₂ ((rhs_axis0 _ _).trans (contrEquiv1_symm_val _ 128 rfl rfl k)) (rhs_axis1 _ _)
  rw [el, er]

/-- Against an indicator row the sum keeps one term: the id's. -/
theorem sum_hot (c : Fin 128) (f : Fin 128 → EReal) : ∑ k : Fin 128, hot (BitVec.ofNat 32 c.val) k * f k = f c := by
  rw [Finset.sum_eq_single c]
  · rw [hot_self, one_mul]
  · intro k _ hk; rw [hot_ne c k hk, zero_mul]
  · intro h; exact absurd (Finset.mem_univ c) h

/-- The bias row laid over the block reads the bias at the column. -/
theorem bias_apply (x2 : FVec Ideal S1x128 .f32) (h1 : S1x128.ShapeCasts S1x128) (h2 : S1x128.Broadcasts S8192x128) (r : Fin 8192) (q : Fin 128) :
    (broadcastTo S8192x128 (shapeCast S1x128 x2 h1) h2 : FVec Ideal S8192x128 .f32) (ix2 r q) = x2 (ix2 (0 : Fin 1) q) := by
  rw [broadcastTo_apply _ h2 _ (ix2 (0 : Fin 1) q) (by
    intro a
    match a with
    | ⟨0, _⟩ => rfl
    | ⟨1, _⟩ => rfl)]
  rw [shapeCast_self]

/-! ## The stored value at an entry -/

/-- Entry `(r, q)` of what the body stores: with atom `(r / 128, r % 128)` of the id block holding class `c`, row `c` of
    the table block at `q` plus the bias at `q`. -/
theorem pay_apply (x0 : Vec Ideal S64x128 .i32) (x1 : Vec Ideal S128x128 .f32) (x2 : Vec Ideal S1x128 .f32)
    (r : Fin 8192) (q : Fin 128) (c : Fin 128)
    (hc : x0 (ix2 ⟨r.val / 128, by have := r.isLt; omega⟩ ⟨r.val % 128, Nat.mod_lt _ (by norm_num)⟩) = BitVec.ofNat 32 c.val) :
    k0_pay1 (F := Ideal) x0 x1 x2 (ix2 r q) = x1 (ix2 c q) + x2 (ix2 (0 : Fin 1) q) := by
  unfold k0_pay1
  dsimp only
  rw [addf_apply, product_apply, bias_apply]
  congr 1
  rw [← sum_hot c (fun k => x1 (ix2 k q))]
  refine Finset.sum_congr rfl fun k _ => ?_
  rw [onehot_apply, hc, truncf_apply, shapeCast_self]

end Cert.Embed.Body

end
-- ==== Proof.Host.lean ====
/-
  The three arrays the kernel's windows are cut from, as the host operations before the launch leave them.

  The ids: each word clamped into `[0, 127]` and the vector of 1048576 laid out as 8192 rows of 128 (row-major, so entry
  `(u, v)` is word `128 u + v`). The table: the weight matrix transposed to 119 rows of 128 and padded below with nine
  rows, so row `k < 119` at `q` is `W (q, k)`. The bias: the vector as one row. A word in the table's range `[0, 119)` is
  left alone by the clamp and is the word of its own column number.
-/
import proofs.«402289_j71992241815595_3_alg».proof.Proof.Gen.KernelIdeal.Frame
import proofs.«402289_j71992241815595_3_alg».proof.Proof.Spec
import Idealize.ShloMosaic.Lib.StableHlo.Run
import Idealize.ShloMosaic.Lib.ValueIdx
import Idealize.ShloMosaic.Lib.Pipeline.Value
import Idealize.ShloMosaic.Lib.KernelVsHost

noncomputable section

namespace Cert.Embed.Host

open Idealize.ShloMosaic Idealize.ShloMosaic.TcCoe Idealize.ShloMosaic.ValueIdx Idealize.SL.Sem Cert.KernelIdeal Cert.KernelIdeal.Gen

/-! ## The clamp on a word in range -/

/-- A nonnegative signed word is its unsigned value. -/
theorem toNat_of_nonneg (w : BitVec 32) (h0 : 0 ≤ w.toInt) : (w.toNat : ℤ) = w.toInt := by
  have e := BitVec.toInt_eq_toNat_cond w
  have hw := w.isLt
  by_cases h : 2 * w.toNat < 2 ^ 32
  · rw [if_pos h] at e; omega
  · rw [if_neg h] at e; omega

/-- A word in `[0, 119)` passes the clamp into `[0, 127]` unchanged, and is the word of its column number. -/
theorem clamp_word (w : BitVec 32) (h0 : 0 ≤ w.toInt) (h1 : w.toInt < 119) :
    IntOp.minsi 127#32 (IntOp.maxsi 0#32 w) = BitVec.ofNat 32 (col w).val := by
  have e127 : (127#32 : BitVec 32).toInt = 127 := by decide
  have e0 : (0#32 : BitVec 32).toInt = 0 := by decide
  have hmax : IntOp.maxsi 0#32 w = w := by
    unfold IntOp.maxsi
    rw [if_neg]
    rw [BitVec.slt_iff_toInt_lt, e0]
    omega
  have hmin : IntOp.minsi 127#32 w = w := by
    unfold IntOp.minsi
    rw [if_neg]
    rw [BitVec.slt_iff_toInt_lt, e127]
    omega
  rw [hmax, hmin]
  have hc : ((col w).val : ℤ) = w.toInt := col_val w h0 h1
  have hn := toNat_of_nonneg w h0
  apply BitVec.eq_of_toNat_eq
  rw [BitVec.toNat_ofNat]
  have hlt : (col w).val < 119 := (col w).isLt
  omega

variable {F : FTy → Type} [FloatOps F]
variable (m : (ℓ : Loc nD τ sig) → Buf (Elt F) ℓ)

/-! ## The id array -/

/-- The id array the first window is cut from: the clamped ids as 8192 rows of 128. -/
theorem ids_eq (c : Dev nD) : (V m c main_v1 : S8192x128.Idx → BitVec 32) =
    shapeCast S8192x128 (minsi (broadcastInDim S1048576 ![] bcast_S_S1048576 (constantI S_ 32 127#32))
      (maxsi (broadcastInDim S1048576 ![] bcast_S_S1048576 (constantI S_ 32 0#32)) (m ((c : Thread nD τ).loc main_arg0))))
      shapeCasts_S1048576_S8192x128 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- Its entry `(u, v)` is the clamp of id `128 u + v`. -/
theorem ids_apply (c : Dev nD) (u : Fin 8192) (v : Fin 128) :
    (V m c main_v1 : S8192x128.Idx → BitVec 32) (ix2 u v)
      = IntOp.minsi 127#32 (IntOp.maxsi 0#32
          ((m ((c : Thread nD τ).loc main_arg0) : S1048576.Idx → BitVec 32) (ix1 ⟨u.val * 128 + v.val, by have := u.isLt; have := v.isLt; omega⟩))) := by
  rw [ids_eq]
  rw [shapeCast_apply _ shapeCasts_S1048576_S8192x128 (ix2 u v) (ix1 ⟨u.val * 128 + v.val, by have := u.isLt; have := v.isLt; omega⟩) (by
    rw [Shape.rowMajor_val_one, Shape.rowMajor_val_two]; rfl)]
  rfl

/-! ## The table array -/

/-- The table array the second window is cut from: the weights transposed, nine rows of padding below. -/
theorem table_eq (c : Dev nD) : (V m c main_v3 : S128x128.Idx → F .f32) =
    pad S128x128 ![0, 0] ![9, 0] ![0, 0]
      (transpose S119x128 [1, 0] (m ((c : Thread nD τ).loc main_arg1) : S128x119.Idx → F .f32) transposes_S128x119_S119x128_1_0)
      (sitofp (F := F) .f32 (constantI S_ 32 0#32)) pads_S119x128_S128x128_090_000 h_S_ := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- Its row `k < 119` at `q` is the weight `(q, k)`. -/
theorem table_apply (c : Dev nD) (k : Fin 119) (q : Fin 128) :
    (V m c main_v3 : S128x128.Idx → F .f32) (ix2 (⟨k.val, by have := k.isLt; omega⟩ : Fin 128) q)
      = (m ((c : Thread nD τ).loc main_arg1) : S128x119.Idx → F .f32) (ix2 q k) := by
  rw [table_eq]
  rw [pad_apply_of_inside _ _ _ _ _ pads_S119x128_S128x128_090_000 h_S_ _ (ix2 k q) (by
    intro a
    match a with
    | ⟨0, _⟩ => show k.val = 0 + k.val * (0 + 1); omega
    | ⟨1, _⟩ => show q.val = 0 + q.val * (0 + 1); omega)]
  rw [transpose_apply _ _ transposes_S128x119_S119x128_1_0 (ix2 k q) (ix2 q k) (by
    intro b
    match b with
    | ⟨0, _⟩ => rfl
    | ⟨1, _⟩ => rfl)]

/-! ## The bias array -/

/-- The bias array the third window is cut from: the vector as one row. -/
theorem bias_eq (c : Dev nD) : (V m c main_v4 : S1x128.Idx → F .f32) =
    shapeCast S1x128 (m ((c : Thread nD τ).loc main_arg2) : S128.Idx → F .f32) shapeCasts_S128_S1x128 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- Its entry `(0, q)` is the bias at `q`. -/
theorem bias_apply (c : Dev nD) (q : Fin 128) :
    (V m c main_v4 : S1x128.Idx → F .f32) (ix2 (0 : Fin 1) q) = (m ((c : Thread nD τ).loc main_arg2) : S128.Idx → F .f32) (ix1 q) := by
  rw [bias_eq]
  rw [shapeCast_apply _ shapeCasts_S128_S1x128 (ix2 (0 : Fin 1) q) (ix1 q) (by
    rw [Shape.rowMajor_val_one, Shape.rowMajor_val_two]
    show q.val = 0 * 128 + q.val
    omega)]

end Cert.Embed.Host

end
-- ==== Proof.Blocks.lean ====
/-
  From the body's stored block to the whole result array, and the kernel's run.

  The grid has 128 points; point `t` reads ids `8192 t … 8192 t + 8191` (rows `64 t … 64 t + 63` of the 8192 × 128 id array),
  the whole table and the whole bias row, and writes rows `8192 t … 8192 t + 8191` of the result. Row `r` of its block is
  atom `8192 t + r`, whose id sits at `(64 t + r / 128, r % 128)` of the id array, that is at position
  `128 (64 t + r / 128) + r % 128 = 8192 t + r` of the id vector. With the ids in the table's range the body's entry
  `(r, q)` is therefore `W (q, id) + b q`: block `t` of the embedding. The 128 blocks tile the result array.
-/
import proofs.«402289_j71992241815595_3_alg».proof.Proof.Gen.KernelIdeal.Value
import proofs.«402289_j71992241815595_3_alg».proof.Proof.Spec
import proofs.«402289_j71992241815595_3_alg».proof.Proof.Body
import proofs.«402289_j71992241815595_3_alg».proof.Proof.Host

set_option maxRecDepth 16384

noncomputable section

namespace Cert.Embed.Blocks

open Idealize.ShloMosaic Idealize.ShloMosaic.TcCoe Idealize.ShloMosaic.ValueIdx Idealize.SL.Sem
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- The id vector as launched. -/
abbrev ids (c : Dev nD) : IVec SN 32 := m ((c : Thread nD τ).loc main_arg0)
/-- The weight table as launched. -/
abbrev wts (c : Dev nD) : FVec Ideal SW .f32 := m ((c : Thread nD τ).loc main_arg1)
/-- The bias vector as launched. -/
abbrev bias (c : Dev nD) : FVec Ideal SB .f32 := m ((c : Thread nD τ).loc main_arg2)

/-- The id block of point `t`. -/
abbrev idblk (c : Dev nD) (t : Fin cfg0.N) : Vec Ideal S64x128 .i32 := iblk m c 0 t
/-- The table block of point `t` (the whole table at every point). -/
abbrev tblblk (c : Dev nD) (t : Fin cfg0.N) : Vec Ideal S128x128 .f32 := iblk m c 1 t
/-- The bias block of point `t` (the whole row at every point). -/
abbrev bblk (c : Dev nD) (t : Fin cfg0.N) : Vec Ideal S1x128 .f32 := iblk m c 2 t

theorem hz : (![0, 0] : Fin 2 → Nat) = fun _ => 0 := funext fun a => by fin_cases a <;> rfl

theorem point_lt (t : Fin cfg0.N) : t.val < 128 := lt_of_lt_of_eq t.isLt N_0

/-- The index maps over the grid: the id and result windows move down one block per point, the table and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks read where the arrays hold them -/

theorem idblk_apply (c : Dev nD) (t : Fin cfg0.N) (u : Fin 64) (v : Fin 128) :
    idblk m c t (ix2 u v) = (V m c main_v1 : S8192x128.Idx → BitVec 32)
      (ix2 (⟨t.val * 64 + u.val, by have := point_lt t; have := u.isLt; omega⟩ : Fin 8192) v) := by
  obtain ⟨e0, e1, -⟩ := idx_facts t
  show (V m c main_v1 : S8192x128.Idx → BitVec 32) (((cfg0.win 0).blk t).view.emb (ix2 u v)) = _
  refine congrArg _ (funext fun a => Fin.ext ?_)
  match a with
  | ⟨0, _⟩ => show win0_0.index t (0 : Fin 2) * 64 + 1 * u.val = t.val * 64 + u.val; omega
  | ⟨1, _⟩ => show win0_0.index t (1 : Fin 2) * 128 + 1 * v.val = v.val; omega

theorem tblblk_apply (c : Dev nD) (t : Fin cfg0.N) (k q : Fin 128) :
    tblblk m c t (ix2 k q) = (V m c main_v3 : S128x128.Idx → EReal) (ix2 k q) := by
  obtain ⟨-, -, e2, e3, -⟩ := idx_facts t
  show (V m c main_v3 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

theorem bblk_apply (c : Dev nD) (t : Fin cfg0.N) (q : Fin 128) :
    bblk m c t (ix2 (0 : Fin 1) q) = (V m c main_v4 : S1x128.Idx → EReal) (ix2 (0 : Fin 1) q) := by
  obtain ⟨-, -, -, -, e4, e5, -⟩ := idx_facts t
  show (V m c main_v4 : S1x128.Idx → EReal) (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-! ## One entry of a point's block -/

/-- With the ids in range, entry `y` of what point `t` stores is the embedding at row `8192 t + y₀`, column `y₁`. -/
theorem block_entry (hr : ∀ c : Dev nD, InRange (ids m c)) (c : Dev nD) (t : Fin cfg0.N) (y : S8192x128.Idx) :
    k0_pay1 (F := Ideal) (idblk m c t) (tblblk m c t) (bblk m c t) y
      = embed (ids m c) (wts m c) (bias m c)
          (ix2 (⟨t.val * 8192 + (y 0).val, by have := point_lt t; have := idx2_lt0 y; omega⟩ : Fin 1048576) (y 1)) := by
  obtain ⟨r, q, rfl⟩ : ∃ (r : Fin 8192) (q : Fin 128), y = ix2 r q := ⟨y 0, y 1, eq_ix2 y⟩
  have ht := point_lt t
  have hrl := r.isLt
  have hn := hr c (ix1 (⟨t.val * 8192 + r.val, by omega⟩ : Fin 1048576))
  have hcol : (col (ids m c (ix1 (⟨t.val * 8192 + r.val, by omega⟩ : Fin 1048576)))).val < 119 := (col _).isLt
  have hc : idblk m c t (ix2 ⟨r.val / 128, by omega⟩ ⟨r.val % 128, Nat.mod_lt _ (by norm_num)⟩)
      = BitVec.ofNat 32 (⟨(col (ids m c (ix1 (⟨t.val * 8192 + r.val, by omega⟩ : Fin 1048576)))).val, by omega⟩ : Fin 128).val := by
    rw [idblk_apply, Host.ids_apply]
    have e : (ix1 (⟨(t.val * 64 + r.val / 128) * 128 + r.val % 128, by omega⟩ : Fin 1048576) : S1048576.Idx)
        = ix1 (⟨t.val * 8192 + r.val, by omega⟩ : Fin 1048576) := by
      refine congrArg ix1 (Fin.ext ?_)
      show (t.val * 64 + r.val / 128) * 128 + r.val % 128 = t.val * 8192 + r.val
      omega
    rw [e]
    exact Host.clamp_word _ hn.1 hn.2
  rw [Body.pay_apply _ _ _ r q _ hc, tblblk_apply, bblk_apply, Host.bias_apply]
  rw [Host.table_apply m c (col (ids m c (ix1 (⟨t.val * 8192 + r.val, by omega⟩ : Fin 1048576)))) q]
  rfl

/-! ## What a point writes back, the cover, and the array -/

/-- What point `t` writes back is block `t` of the embedding. -/
theorem flushed_eq (hr : ∀ c : Dev nD, InRange (ids m c)) (c : Dev nD) (t : Fin cfg0.N) :
    (dats m 0 c).flushed 3 t = ((cfg0.win 3).blk t).view.read (Elt Ideal) (embed (ids m c) (wts m c) (bias m c)) := by
  rw [flushed3]
  unfold out0_3
  rw [View.canon_unit_zero hz]
  simp only [View.ld_unit_zero (S := S64x128) hz, View.ld_unit_zero (S := S128x128) hz, View.ld_unit_zero (S := S1x128) hz]
  obtain ⟨-, -, -, -, -, -, e6, e7⟩ := idx_facts t
  funext y
  show k0_pay1 (F := Ideal) (idblk m c t) (tblblk m c t) (bblk m c t) y
      = embed (ids m c) (wts m c) (bias m c) (((cfg0.win 3).blk t).view.emb y)
  refine (block_entry m hr c t y).trans (congrArg _ (funext fun a => Fin.ext ?_))
  match a with
  | ⟨0, _⟩ => show t.val * 8192 + (y 0).val = win0_3.index t (0 : Fin 2) * 8192 + 1 * (y 0).val; omega
  | ⟨1, _⟩ => show (y 1).val = win0_3.index t (1 : Fin 2) * 128 + 1 * (y 1).val; omega

/-- An index of the result array is in point `t`'s block iff its row lies in `[8192 t, 8192 t + 8192)`. -/
theorem mem_blk (t : Fin cfg0.N) (i : S1048576x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v5).slice (win0_3.rect t)).set ↔ _
  rw [View.set_slice_whole, Rect.mem_set_unit]
  exact Iff.rfl

/-- Every index of the result array lies in the block of the point its row selects. -/
theorem cover (i : S1048576x128.Idx) : ∃ t : Fin cfg0.N, (cfg0.win 3).flush t = true ∧ i ∈ ((cfg0.win 3).blk t).view.set := by
  have hi0 : (i 0).val < 1048576 := idx2_lt0 i
  have hi1 : (i 1).val < 128 := idx2_lt1 i
  refine ⟨⟨(i 0).val / 8192, by rw [show cfg0.N = 128 from N_0]; omega⟩, flush0_3 _, ?_⟩
  obtain ⟨-, -, -, -, -, -, e6, e7⟩ := idx_facts ⟨(i 0).val / 8192, by rw [show cfg0.N = 128 from N_0]; omega⟩
  rw [mem_blk]
  intro a
  match a with
  | ⟨0, _⟩ =>
    show win0_3.index _ (0 : Fin 2) * 8192 ≤ (i 0).val ∧ (i 0).val < win0_3.index _ (0 : Fin 2) * 8192 + 8192
    rw [e6]; show (i 0).val / 8192 * 8192 ≤ (i 0).val ∧ (i 0).val < (i 0).val / 8192 * 8192 + 8192; omega
  | ⟨1, _⟩ =>
    show win0_3.index _ (1 : Fin 2) * 128 ≤ (i 1).val ∧ (i 1).val < win0_3.index _ (1 : Fin 2) * 128 + 128
    rw [e7]; omega

/-- The result array after the run is the embedding. -/
theorem final (hr : ∀ c : Dev nD, InRange (ids m c)) (c : Dev nD) :
    (dats m 0 c).arrAt 3 cfg0.N = embed (ids m c) (wts m c) (bias m c) :=
  (dats m 0 c).arrAt_eq_of_cover 3 (embed (ids m c) (wts m c) (bias m c)) (fun t _ => flushed_eq m hr c t) cover

end Cert.Embed.Blocks

/-! ## The kernel's run -/

namespace Cert.Embed

open Idealize.ShloMosaic Idealize.ShloMosaic.TcCoe Idealize.SL.Sem Cert.KernelIdeal

/-- With the ids in the table's range, every fair execution of the kernel's program ends with the result array at the
    embedding of the launched arguments, and the arguments as launched. -/
theorem kernel_run (m : (ℓ : Loc nD τ sig) → Buf (Elt Ideal) ℓ) (ρ : Dev nD → PrngReg)
    (hr : ∀ c : Dev nD, InRange (m ((c.tc : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v5)
          = embed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (Blocks.final m hr c), (h c).2⟩) (Value.run_blocks m ρ)

end Cert.Embed

end
-- ==== Proof.LibTakeFill.lean ====
/-
  A gather that fills out-of-range rows, when no row is out of range. `jnp.take(x, idx, axis=0)` lowers to: wrap a
  negative index by adding the extent `N`; test the wrapped index against `[0, N − 1]`; gather the rows (the start index
  clamped); and select, row by row, the gathered row where the test passed and a fill value where it did not. When every
  index word `i` satisfies `−N ≤ i < N` the wrapped index lies in `[0, N − 1]`, the test passes on every row, and the
  select returns the gathered rows: the fill value is never read.
-/
import Idealize.ShloMosaic.PureOps.Vector
import Idealize.ShloMosaic.PureOps.Contract
import Idealize.ShloMosaic.PureOps.ShapeOps
import Idealize.ShloMosaic.Lib.ValueIdx
import Idealize.ShloMosaic.Lib.Pipeline.Value
import Idealize.ShloMosaic.Lib.ReduceAll

noncomputable section

namespace Cert.LibTakeFill

open Idealize.ShloMosaic Idealize.ShloMosaic.ValueIdx

/-- The rank-0 shape. -/
abbrev Sc : Shape := ⟨0, ![]⟩
/-- A vector of `E` words. -/
abbrev V1 (E : Nat) : Shape := ⟨1, ![E]⟩
/-- A column of `E` words. -/
abbrev Col (E : Nat) : Shape := ⟨2, ![E, 1]⟩
/-- The `1 × 1` shape. -/
abbrev One2 : Shape := ⟨2, ![1, 1]⟩

/-- The index vector after the wrap of its negative words (`i < 0 ↦ i + N`), laid out as a column. -/
abbrev wrapCol {E : Nat} (hb0 : Sc.BroadcastsInDim (V1 E) (![] : Fin 0 → Fin 1))
    (hbc : (V1 E).BroadcastsInDim (Col E) (![0] : Fin 1 → Fin 2)) (Nw : BitVec 32) (idx : IVec (V1 E) 32) : IVec (Col E) 32 :=
  broadcastInDim (Col E) (![0] : Fin 1 → Fin 2) hbc
    (select (cmpi .slt idx (broadcastInDim (V1 E) (![] : Fin 0 → Fin 1) hb0 (constantI Sc 32 0#32)))
      (addi idx (broadcastInDim (V1 E) (![] : Fin 0 → Fin 1) hb0 (constantI Sc 32 Nw))) idx)

/-- The word of a natural number below `2³¹` reads, signed, as that number. -/
theorem toInt_ofNat_small (a : ℕ) (ha : a < 2 ^ 31) : (BitVec.ofNat 32 a).toInt = (a : ℤ) := by
  rw [BitVec.toInt_ofNat']
  exact Int.bmod_eq_of_le_mul_two (by omega) (by omega)

/-- One word: with `−N ≤ i < N`, the wrapped word `i'` (`i + N` when `i < 0`, else `i`) passes both tests
    `i' ≥ 0` and `i' ≤ N − 1` (signed compares on 32-bit words; `N` far below `2³¹`). -/
theorem wrap_word_in_range (N : Nat) (hN0 : 0 < N) (hN : N < 2 ^ 30) (i : BitVec 32)
    (hi : -(N : ℤ) ≤ i.toInt ∧ i.toInt < (N : ℤ)) :
    IntOp.andi
      (IntOp.cmpi .sge (Scalar.select (IntOp.cmpi .slt i 0#32) (IntOp.addi i (BitVec.ofNat 32 N)) i) 0#32)
      (IntOp.cmpi .sle (Scalar.select (IntOp.cmpi .slt i 0#32) (IntOp.addi i (BitVec.ofNat 32 N)) i) (BitVec.ofNat 32 (N - 1)))
      = 1#1 := by
  obtain ⟨h1, h2⟩ := hi
  have hNi : (BitVec.ofNat 32 N).toInt = (N : ℤ) := toInt_ofNat_small N (by omega)
  have hN1 : (BitVec.ofNat 32 (N - 1)).toInt = ((N - 1 : ℕ) : ℤ) := toInt_ofNat_small (N - 1) (by omega)
  have h0 : (0#32).toInt = 0 := BitVec.toInt_zero
  rw [IntOp.andi_eq_one, IntOp.cmpi_sge, IntOp.cmpi_sle, h0, hN1]
  by_cases hneg : i.toInt < 0
  · have hc : IntOp.cmpi .slt i 0#32 = 1#1 := IntOp.cmpi_slt.mpr (by rw [h0]; exact hneg)
    rw [hc, select_one]
    have hsum : (IntOp.addi i (BitVec.ofNat 32 N)).toInt = i.toInt + (N : ℤ) := by
      show (i + BitVec.ofNat 32 N).toInt = _
      rw [BitVec.toInt_add, hNi]
      exact Int.bmod_eq_of_le_mul_two (by omega) (by omega)
    rw [hsum]
    omega
  · have hc : ¬ IntOp.cmpi .slt i 0#32 = 1#1 := fun h => hneg (by have := IntOp.cmpi_slt.mp h; rwa [h0] at this)
    have hsel : Scalar.select (IntOp.cmpi .slt i 0#32) (IntOp.addi i (BitVec.ofNat 32 N)) i = i := if_neg hc
    rw [hsel]
    omega

/-- A broadcast of a vector that is `c` everywhere is `c` everywhere: the result at an index is the operand at some index. -/
theorem broadcastInDim_eq_const {α : Type} {s t : Shape} (dims : Fin s.rank → Fin t.rank) (h : s.BroadcastsInDim t dims)
    (x : s.Idx → α) (c : α) (hx : ∀ k, x k = c) (j : t.Idx) : broadcastInDim t dims h x j = c := hx _

/-- A fold of `and` from the bit `1` over bits that are all `1` is `1`. -/
theorem foldl_andi_ones {ι : Type} (x : ι → BitVec 1) (hx : ∀ n, x n = 1#1) (l : List ι) :
    l.foldl (fun r n => IntOp.andi r (x n)) 1#1 = 1#1 := by
  induction l with
  | nil => rfl
  | cons a l ih =>
    have h1 : IntOp.andi 1#1 (x a) = 1#1 := by rw [hx a]; decide
    simp only [List.foldl_cons, h1]
    exact ih

/-- A reduction by `and`, from an initial value that is `1`, of a vector of ones is all ones. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_ones (fun n => x (s.rowMajor.symm n)) (fun n => hx _) _

/-- THE FILLING GATHER IS THE GATHER when every index word lies in `[−N, N)`: the row mask (the reduction by `and`, along
    the unit axis, of the two range tests of the wrapped column) is all ones, so the select keeps `g` everywhere. -/
theorem take_fill_eq {α : Type} {E C : Nat} (N : Nat) (Nw Nm1 : BitVec 32)
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hbEC : (V1 E).BroadcastsInDim (⟨2, ![E, C]⟩ : Shape) (![0] : Fin 1 → Fin 2))
    (hN0 : 0 < N) (hN : N < 2 ^ 30) (hNw : Nw = BitVec.ofNat 32 N) (hNm1 : Nm1 = BitVec.ofNat 32 (N - 1))
    (idx : IVec (V1 E) 32) (hidx : ∀ e : (V1 E).Idx, -(N : ℤ) ≤ (idx e).toInt ∧ (idx e).toInt < (N : ℤ))
    (g fill : (⟨2, ![E, C]⟩ : Shape).Idx → α) :
    select (broadcastInDim (⟨2, ![E, C]⟩ : Shape) (![0] : Fin 1 → Fin 2) hbEC
        (Host.reduce IntOp.andi
          (andi (cmpi .sge (wrapCol hb0 hbc Nw idx) (broadcastInDim (Col E) (![] : Fin 0 → Fin 2) hb01 (constantI Sc 32 0#32)))
            (cmpi .sle (wrapCol hb0 hbc Nw idx)
              (broadcastInDim (Col E) (![0, 1] : Fin 2 → Fin 2) hb1E
                (broadcastInDim One2 (![1] : Fin 1 → Fin 2) hb11 (constantI (V1 1) 32 Nm1)))))
          (constantI Sc 1 1#1) hr h0)) g fill = g := by
  subst hNw hNm1
  funext j
  rw [select_apply]
  have hmask : broadcastInDim (⟨2, ![E, C]⟩ : Shape) (![0] : Fin 1 → Fin 2) hbEC
        (Host.reduce IntOp.andi
          (andi (cmpi .sge (wrapCol hb0 hbc (BitVec.ofNat 32 N) idx) (broadcastInDim (Col E) (![] : Fin 0 → Fin 2) hb01 (constantI Sc 32 0#32)))
            (cmpi .sle (wrapCol hb0 hbc (BitVec.ofNat 32 N) idx)
              (broadcastInDim (Col E) (![0, 1] : Fin 2 → Fin 2) hb1E
                (broadcastInDim One2 (![1] : Fin 1 → Fin 2) hb11 (constantI (V1 1) 32 (BitVec.ofNat 32 (N - 1)))))))
          (constantI Sc 1 1#1) hr h0) j = 1#1 :=
    broadcastInDim_eq_const _ _ _ _
      (fun k => reduce_andi_ones _ _ _ _ (fun i => wrap_word_in_range N hN0 hN (idx _) (hidx _)) (fun _ => rfl) k) j
  rw [hmask, select_one]

end Cert.LibTakeFill

end
-- ==== Proof.RefRun.lean ====
/-
  The reference program's run, and the value it leaves.

  The reference is a straight line of tensor operations: the transpose of the weight table, the gather of table rows that fills
  out-of-range rows (its negative-index wrap, a select, inlined), two broadcasts of the bias, and the sum.
  Listed in order they are one sequence whose run is the fold of their results over the launch contents. Under the
  range hypothesis on the ids the fill of the gather is never read, the wrap is the identity, the clamped start index
  is the id itself, and the result at "(n, d)" is "W (d, a n) + b d": the embedding of the specification.
-/
import proofs.«402289_j71992241815595_3_alg».proof.Proof.Gen.ReferenceIdeal
import proofs.«402289_j71992241815595_3_alg».proof.Proof.Spec
import proofs.«402289_j71992241815595_3_alg».proof.Proof.LibTakeFill
import Idealize.ShloMosaic.Lib.StableHlo.Run
import Idealize.ShloMosaic.Lib.ValueLayout
import Idealize.ShloMosaic.Lib.Affine

noncomputable section

namespace Cert.Embed.Ref

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The operations of the reference in order, the two calls unfolded: the transpose; the gather function's
    twenty-three (the wrap's select, which is the inner function's one operation, at its place); the two broadcasts
    of the bias and the sum. -/
abbrev ops : List (HloOp τ sig (Elt F)) :=
  [ unary main_arg1 main_v0 ((transpose S119x128 [1, 0] · transposes_S128x119_S119x128_1_0) : (⟨S128x119, .f32⟩ : BufTy).Contents (Elt F) → (⟨S119x128, .f32⟩ : BufTy).Contents (Elt F)),
    TRef.nullary main_call0.c (constantI S_ 32 0#32),
    TRef.unary main_call0.c main_call0.v0 (broadcastInDim S1048576 ![] bcast_S_S1048576),
    TRef.binary (.of main_arg0) main_call0.v0 main_call0.v1 (cmpi .slt),
    TRef.nullary main_call0.c_0 (constantI S_ 32 119#32),
    TRef.unary main_call0.c_0 main_call0.v2 (broadcastInDim S1048576 ![] bcast_S_S1048576),
    TRef.binary (.of main_arg0) main_call0.v2 main_call0.v3 addi,
    TRef.ternary main_call0.v1 main_call0.v3 (.of main_arg0) main_call0.call0.v0 select,
    TRef.unary main_call0.call0.v0 main_call0.v5 (broadcastInDim S1048576x1 ![0] bcast_S1048576_S1048576x1_0),
    TRef.nullary main_call0.c_1 (constantI S1 32 118#32),
    TRef.nullary main_call0.c_2 (constantI S_ 32 0#32),
    TRef.unary main_call0.c_2 main_call0.v6 (broadcastInDim S1048576x1 ![] bcast_S_S1048576x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1048576x1 ![0, 1] bcast_S1x1_S1048576x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1048576x1_S1048576_d1 h_S_),
    TRef.binary (.of main_v0) main_call0.v5 main_call0.v13 (fun x i => Host.gather gather_S119x128_S1048576x1_S1048576x128_1_0_n_n_0_1_1128 x i),
    TRef.unary main_call0.v12 main_call0.v14 (broadcastInDim S1048576x128 ![0] bcast_S1048576_S1048576x128_0),
    TRef.nullary main_call0.cst (constant S_ .f32 0x7FC00000#32),
    TRef.unary main_call0.cst main_call0.v15 (broadcastInDim S1048576x128 ![] bcast_S_S1048576x128),
    TRef.ternary main_call0.v14 main_call0.v13 main_call0.v15 main_call0.v16 select,
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S1048576x128 ![0, 1] bcast_S1x128_S1048576x128_0_1 : (⟨S1x128, .f32⟩ : BufTy).Contents (Elt F) → (⟨S1048576x128, .f32⟩ : BufTy).Contents (Elt F)),
    binary main_v1 main_v3 main_v4 (addf : (⟨S1048576x128, .f32⟩ : BufTy).Contents (Elt F) → (⟨S1048576x128, .f32⟩ : BufTy).Contents (Elt F) → (⟨S1048576x128, .f32⟩ : BufTy).Contents (Elt F)) ]

set_option maxRecDepth 1024 in
/-- The reference is that straight line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

/-- From any memory with zero counters every weakly fair execution of the reference terminates, each buffer at the
    fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The value -/

/-- The dimension numbers of a gather of whole rows: the table "[N, C]", one start index per result row (the index
    array a column "[E, 1]"), the row axis collapsed and start-indexed, the column axis the one offset axis. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at "(p, q)": the table at row "idx[p, 0]", read signed and clamped into "[0, N − 1]",
    and column "q". -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (p : Fin E) (q : Fin C) :
    Host.gather (rowDims N C E wf) x idx (ix2 p q)
      = x (ix2 ⟨min (idx (ix2 p (0 : Fin 1))).toInt.toNat (N - 1), by omega⟩ q) := by
  unfold Host.gather
  congr 1
  funext a
  refine Fin.ext ?_
  match a with
  | ⟨0, _⟩ =>
    show (rowDims N C E wf).start (ix2 p q) idx 0 + (rowDims N C E wf).batchCoord (ix2 p q) 0
        + (rowDims N C E wf).offCoord (ix2 p q) 0 = min (idx (ix2 p (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 p q) ⟨List.idxOf (0 : Fin 2) (rowDims N C E wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N C E wf).start (ix2 p q) idx 1 + (rowDims N C E wf).batchCoord (ix2 p q) 1
        + (rowDims N C E wf).offCoord (ix2 p q) 1 = q.val
    rw [GatherDims.batchCoord_eq_zero _ _ _ List.not_mem_nil]
    unfold GatherDims.start
    rw [dif_neg (show (1 : Fin 2) ∉ (rowDims N C E wf).startIndexMap from fun h => absurd (congrArg Fin.val (List.mem_singleton.mp h)) Nat.one_ne_zero)]
    simp only [Nat.add_zero, Nat.zero_add]
    rfl

/-- The wrap of negative words is the identity at a word that is not negative: the column of wrapped words read at row
    "p" is the word "p". -/
theorem wrapCol_apply_of_nonneg (Nw : BitVec 32) (idx : IVec S1048576 32) (p : Fin 1048576) (h : 0 ≤ (idx (ix1 p)).toInt) :
    Cert.LibTakeFill.wrapCol bcast_S_S1048576 bcast_S1048576_S1048576x1_0 Nw idx (ix2 p (0 : Fin 1)) = idx (ix1 p) := by
  refine (broadcastInDim_apply _ _ _ _ (ix1 p) (fun a => match a with | ⟨0, _⟩ => rfl)).trans ?_
  rw [select_apply]
  have hc : ¬ cmpi CmpIPredicate.slt idx (broadcastInDim (LibTakeFill.V1 1048576) ![] bcast_S_S1048576 (constantI LibTakeFill.Sc 32 0#32)) (ix1 p) = 1#1 := fun h' => by
    have := IntOp.cmpi_slt.mp h'
    have hz : (broadcastInDim (LibTakeFill.V1 1048576) ![] bcast_S_S1048576 (constantI LibTakeFill.Sc 32 0#32) (ix1 p)).toInt = 0 := BitVec.toInt_zero
    rw [hz] at this
    omega
  exact if_neg hc

/-- Contents moved to a typed reference's buffer and back are the contents. -/
theorem ofBuf_toBuf {T : BufTy} (x : TRef sig T) (v : T.Contents (Elt F)) : x.ofBuf (x.toBuf v) = v := by
  obtain ⟨r, h, _, _⟩ := x
  subst h
  rfl

attribute [local irreducible] Host.reduce Host.gather in
/-- What the run leaves in the result buffer: the operations' composed term of the three arguments. The moves of
    contents between a value's type and its buffer's type are identities: a move out and back cancels, and the three
    single moves at literal buffers (the ids, the transposed table, the gather function's result) are the identity
    there. -/
theorem v4_full (V : Valuation τ sig (Elt F)) :
    after ops V (main_v4 : DevRef τ sig)
      = addf
          (select
            (broadcastInDim S1048576x128 ![0] bcast_S1048576_S1048576x128_0
              (Host.reduce IntOp.andi
                (andi
                  (cmpi .sge (Cert.LibTakeFill.wrapCol bcast_S_S1048576 bcast_S1048576_S1048576x1_0 119#32 (V (main_arg0 : DevRef τ sig)))
                    (broadcastInDim S1048576x1 ![] bcast_S_S1048576x1 (constantI S_ 32 0#32)))
                  (cmpi .sle (Cert.LibTakeFill.wrapCol bcast_S_S1048576 bcast_S1048576_S1048576x1_0 119#32 (V (main_arg0 : DevRef τ sig)))
                    (broadcastInDim S1048576x1 ![0, 1] bcast_S1x1_S1048576x1_0_1
                      (broadcastInDim S1x1 ![1] bcast_S1_S1x1_1 (constantI S1 32 118#32)))))
                (constantI S_ 1 1#1) reducesTo_S1048576x1_S1048576_d1 h_S_))
            (Host.gather gather_S119x128_S1048576x1_S1048576x128_1_0_n_n_0_1_1128
              (transpose S119x128 [1, 0] (V (main_arg1 : DevRef τ sig)) transposes_S128x119_S119x128_1_0)
              (Cert.LibTakeFill.wrapCol bcast_S_S1048576 bcast_S1048576_S1048576x1_0 119#32 (V (main_arg0 : DevRef τ sig))))
            (broadcastInDim S1048576x128 ![] bcast_S_S1048576x128 (constant S_ .f32 0x7FC00000#32)))
          (broadcastInDim S1048576x128 ![0, 1] bcast_S1x128_S1048576x128_0_1
            (broadcastInDim S1x128 ![1] bcast_S128_S1x128_1 (V (main_arg2 : DevRef τ sig)))) := by
  after_results_simp
  simp only [ofBuf_toBuf]
  have e0 : ∀ X, (TRef.of (T := ⟨S1048576, .i32⟩) main_arg0).ofBuf (Val := Elt F) X = X := fun _ => rfl
  have e1 : ∀ X, (TRef.of (T := ⟨S119x128, .f32⟩) main_v0).ofBuf (Val := Elt F) X = X := fun _ => rfl
  have e2 : ∀ X, (TRef.of (T := ⟨S1048576x128, .f32⟩) main_v1).toBuf (Val := Elt F) X = X := fun _ => rfl
  simp only [e0, e1, e2]

/-- The same with the fill removed: under the range hypothesis the gather's row mask is all ones, so the select keeps
    the gathered rows; the result is their sum with the broadcast bias. -/
theorem v4_eq (V : Valuation τ sig (Elt F)) (hr : InRange (V (main_arg0 : DevRef τ sig))) :
    after ops V (main_v4 : DevRef τ sig)
      = addf (Host.gather gather_S119x128_S1048576x1_S1048576x128_1_0_n_n_0_1_1128
            (transpose S119x128 [1, 0] (V (main_arg1 : DevRef τ sig)) transposes_S128x119_S119x128_1_0)
            (Cert.LibTakeFill.wrapCol bcast_S_S1048576 bcast_S1048576_S1048576x1_0 119#32 (V (main_arg0 : DevRef τ sig))))
          (broadcastInDim S1048576x128 ![0, 1] bcast_S1x128_S1048576x128_0_1
            (broadcastInDim S1x128 ![1] bcast_S128_S1x128_1 (V (main_arg2 : DevRef τ sig)))) := by
  rw [v4_full V, Cert.LibTakeFill.take_fill_eq 119 119#32 118#32 bcast_S_S1048576 bcast_S1048576_S1048576x1_0 bcast_S_S1048576x1
    bcast_S1_S1x1_1 bcast_S1x1_S1048576x1_0_1 reducesTo_S1048576x1_S1048576_d1 h_S_ bcast_S1048576_S1048576x128_0
    (by decide) (by decide) rfl rfl (V (main_arg0 : DevRef τ sig))
    (fun e => ⟨by have := (hr e).1; omega, (hr e).2⟩)]

/-- THE VALUE: under the range hypothesis the run leaves the embedding in the result buffer. At "(p, q)": the sum
    reads both summands there; the gather reads the transposed table at the row its start index names, clamped, and
    column "q"; the start index is the id of row "p" (the wrap is the identity on it), so the clamped row is the
    specification's column; the transposed table at "(column, q)" is the table at "(q, column)"; the two broadcasts
    of the bias read it at "q". -/
theorem out_eq (V : Valuation τ sig (Elt Ideal)) (hr : InRange (V (main_arg0 : DevRef τ sig))) :
    after ops V (main_v4 : DevRef τ sig)
      = embed (V (main_arg0 : DevRef τ sig)) (V (main_arg1 : DevRef τ sig)) (V (main_arg2 : DevRef τ sig)) := by
  rw [v4_eq V hr]
  funext j
  obtain ⟨p, q, rfl⟩ : ∃ (p : Fin 1048576) (q : Fin 128), j = ix2 p q := ⟨j 0, j 1, eq_ix2 j⟩
  rw [embed_ix2, addf_apply]
  congr 1
  · refine (gather_rows_apply (N := 119) (C := 128) (E := 1048576) (by decide) gather_S119x128_S1048576x1_S1048576x128_1_0_n_n_0_1_1128_wf _ _ p q).trans ?_
    have hw := wrapCol_apply_of_nonneg 119#32 (V (main_arg0 : DevRef τ sig)) p (hr (ix1 p)).1
    simp only [hw]
    exact transpose_ix2_apply _ _ (col (V (main_arg0 : DevRef τ sig) (ix1 p))) q
  · refine (broadcastInDim_apply _ _ _ _ (ix2 (0 : Fin 1) q) (fun a => match a with | ⟨0, _⟩ => rfl | ⟨1, _⟩ => rfl)).trans ?_
    exact broadcastInDim_apply _ _ _ _ (ix1 q) (fun a => match a with | ⟨0, _⟩ => rfl)

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

end Cert.Embed.Ref

namespace Cert.Embed

open Cert.ReferenceIdeal Cert.ReferenceIdeal.Gen Idealize.ShloMosaic Idealize.ShloMosaic.TcCoe Idealize.SL.Sem Idealize.ShloMosaic.StableHlo

/-- THE REFERENCE'S RUN: from any memory with zero counters whose ids lie in the table's range, every weakly fair
    execution of the reference terminates with the embedding of the three arguments in the result buffer and the
    arguments unchanged. -/
theorem reference_run
    (m : (ℓ : Loc Cert.ReferenceIdeal.nD Cert.ReferenceIdeal.τ Cert.ReferenceIdeal.sig) → Buf (Elt Ideal) ℓ) (ρ : Dev Cert.ReferenceIdeal.nD → PrngReg)
    (hr : ∀ c : Dev Cert.ReferenceIdeal.nD, Cert.Embed.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v4)
            = Cert.Embed.embed (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run (Cert.ReferenceIdeal.defs (F := Ideal)) _ _).mono
    (fun _ h c => ⟨(h c main_v4).trans (Ref.out_eq (launchContents m c) (hr c)),
      (h c main_arg0).trans (Ref.arg0_eq (launchContents m c)),
      (h c main_arg1).trans (Ref.arg1_eq (launchContents m c)),
      (h c main_arg2).trans (Ref.arg2_eq (launchContents m c))⟩)
    (Ref.run_main m ρ)

end Cert.Embed

end
-- ==== Proof.lean ====
/-
  The certificate of the atom-embedding kernel against its gather reference, over the extended reals.

  Both programs compute, for each of 1048576 atoms with id `a` and each of 128 features `d`, the weight `W (d, a)` plus the
  bias `b d`: the reference by gathering row `a` of the transposed weight table; the kernel by multiplying the indicator
  row of `a` among 128 classes with the table padded to 128 rows, block by block over a grid of 128 points, and adding
  the bias. The two agree where the id is a row of the table, `0 ≤ a < 119`, which the precondition states: below that
  range the reference wraps the id around and the kernel clamps it; above it the reference fills the row and the kernel
  reads a padding row.

  The parts: the shared function `Cert.Embed.embed` (Proof/Spec.lean); the precondition read back at one id
  (Proof/PreRange.lean); the kernel's stored block entry (Proof/Body.lean), the arrays its windows are cut from
  (Proof/Host.lean), the blocks assembled into the result array and the kernel's run (Proof/Blocks.lean); the
  reference's run and its result as the same function (Proof/RefRun.lean, over Proof/LibTakeFill.lean). The kernel's
  idealization rewrote nothing, so `preserves` has nothing to state. The frames of the two kernel programs hold with no
  hypothesis on the ids (the kernel clamps before it indexes); the reference's frame is its run with the result dropped.
-/
import proofs.«402289_j71992241815595_3_alg».proof.Defs
import proofs.«402289_j71992241815595_3_alg».proof.Proof.Gen.Kernel
import proofs.«402289_j71992241815595_3_alg».proof.Proof.Gen.Kernel.Skeleton
import proofs.«402289_j71992241815595_3_alg».proof.Proof.Gen.Kernel.Launch
import proofs.«402289_j71992241815595_3_alg».proof.Proof.Gen.Kernel.Points
import proofs.«402289_j71992241815595_3_alg».proof.Proof.Gen.Kernel.Frame
import proofs.«402289_j71992241815595_3_alg».proof.Proof.Gen.KernelIdeal
import proofs.«402289_j71992241815595_3_alg».proof.Proof.Gen.KernelIdeal.Skeleton
import proofs.«402289_j71992241815595_3_alg».proof.Proof.Gen.KernelIdeal.Launch
import proofs.«402289_j71992241815595_3_alg».proof.Proof.Gen.KernelIdeal.Points
import proofs.«402289_j71992241815595_3_alg».proof.Proof.Gen.KernelIdeal.Frame
import proofs.«402289_j71992241815595_3_alg».proof.Proof.Gen.KernelIdeal.Value
import proofs.«402289_j71992241815595_3_alg».proof.Proof.Gen.ReferenceIdeal
import proofs.«402289_j71992241815595_3_alg».proof.Proof.Gen.Pre_finite_inputs
import proofs.«402289_j71992241815595_3_alg».proof.Proof.Spec
import proofs.«402289_j71992241815595_3_alg».proof.Proof.PreRange
import proofs.«402289_j71992241815595_3_alg».proof.Proof.Blocks
import proofs.«402289_j71992241815595_3_alg».proof.Proof.RefRun
import Idealize.ShloMosaic.Adequacy
import Idealize.ShloMosaic.Init

noncomputable section

namespace Cert.Proof

open Idealize.ShloMosaic Idealize.SL.Sem

/-- Under the precondition the kernel's ids are in the table's range. -/
theorem range_kernel (m : (ℓ : Loc Cert.KernelIdeal.nD Cert.KernelIdeal.τ Cert.KernelIdeal.sig) → Buf (Elt Ideal) ℓ)
    (h : Cert.Pre_KernelIdeal m) (c : Dev Cert.KernelIdeal.nD) :
    Cert.Embed.InRange (m ((c.tc : Thread Cert.KernelIdeal.nD Cert.KernelIdeal.τ).loc Cert.KernelIdeal.main_arg0)) :=
  Cert.Embed.inRange_of_pre _ _ _ (h c)

/-- Under the precondition the reference's ids are in the table's range. -/
theorem range_reference (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Cert.Embed.InRange (m ((c.tc : Thread Cert.ReferenceIdeal.nD Cert.ReferenceIdeal.τ).loc Cert.ReferenceIdeal.main_arg0)) :=
  Cert.Embed.inRange_of_pre _ _ _ (h c)

theorem frame_reference : Cert.frame_ReferenceIdeal := fun m ρ hpre =>
  (θ_run Cert.ReferenceIdeal.defs _ _).mono (fun _ h c => (h c).2)
    (Cert.Embed.reference_run m ρ (range_reference m hpre))

/-- From memories that agree on the arguments both programs end with the result array at the embedding of the
    kernel's arguments. -/
theorem algebraic : Cert.algebraic_KernelIdeal_ReferenceIdeal := by
  intro m ρ m' ρ' hpre hagree
  have hr' : ∀ c : Dev Cert.ReferenceIdeal.nD,
      Cert.Embed.InRange (m' ((c.tc : Thread Cert.ReferenceIdeal.nD Cert.ReferenceIdeal.τ).loc Cert.ReferenceIdeal.main_arg0)) := fun c => by
    rw [(hagree c).1]; exact range_kernel m hpre c
  refine ⟨_, Cert.Embed.kernel_run m ρ (range_kernel m hpre), ?_⟩
  refine (θ_run Cert.ReferenceIdeal.defs _ _).mono (fun _ h c => ⟨(h c).1.trans ?_, (h c).2⟩)
    (Cert.Embed.reference_run m' ρ' hr')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
